-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x320x320x320 : Shape := ⟨4, ![3, 320, 320, 320]⟩
abbrev S_ : Shape := ⟨0, ![]⟩

class Facts : Prop where
  bcast_S_S3x320x320x320 : S_.BroadcastsInDim S3x320x320x320 (![] : Fin 0 → Fin S3x320x320x320.rank)
  reducesTo_S3x320x320x320_S_d0_1_2_3 : S3x320x320x320.ReducesTo [0, 1, 2, 3] S_
  h_S_ : 0 < S_.numel

variable [Facts]

def fn {F : FTy → Type} [FloatOps F] (main_arg0 : FVec F S3x320x320x320 .f32) : IVec S_ 1 :=
  let main_v0 : FVec F S3x320x320x320 .f32 := Host.absf main_arg0
  let main_cst : FVec F S_ .f32 := constant S_ .f32 0x7F800000#32
  let main_v1 : FVec F S3x320x320x320 .f32 := broadcastInDim S3x320x320x320 ![] bcast_S_S3x320x320x320 main_cst
  let main_v2 : IVec S3x320x320x320 1 := cmpf .olt main_v0 main_v1
  let main_c : IVec S_ 1 := constantI S_ 1 1#1
  let main_v3 : IVec S_ 1 := (fun x v => Host.reduce IntOp.andi x v reducesTo_S3x320x320x320_S_d0_1_2_3 h_S_) main_v2 main_c
  main_v3
-- ==== Kernel.lean ====
abbrev S3x320x320x320 : Shape := ⟨4, ![3, 320, 320, 320]⟩
abbrev S320x320x320 : Shape := ⟨3, ![320, 320, 320]⟩
abbrev S1x8x320x320 : Shape := ⟨4, ![1, 8, 320, 320]⟩
abbrev S1x1x320x320 : Shape := ⟨4, ![1, 1, 320, 320]⟩
abbrev S8x320x320 : Shape := ⟨3, ![8, 320, 320]⟩
abbrev S1x320x320 : Shape := ⟨3, ![1, 320, 320]⟩

abbrev nBuf : Space → Nat
  | .hbm => 2
  | .vmem => 10
  | .smem => 0
  | _ => 0

abbrev bufTy : (tb : Table) → Fin (tcTables nBuf tb) → BufTy
  | .hbm, ⟨0, _⟩ => ⟨S3x320x320x320, .f32⟩
  | .hbm, ⟨1, _⟩ => ⟨S320x320x320, .f32⟩
  | .local _ .vmem, ⟨0, _⟩ => ⟨S1x8x320x320, .f32⟩
  | .local _ .vmem, ⟨1, _⟩ => ⟨S1x8x320x320, .f32⟩
  | .local _ .vmem, ⟨2, _⟩ => ⟨S1x1x320x320, .f32⟩
  | .local _ .vmem, ⟨3, _⟩ => ⟨S1x1x320x320, .f32⟩
  | .local _ .vmem, ⟨4, _⟩ => ⟨S1x8x320x320, .f32⟩
  | .local _ .vmem, ⟨5, _⟩ => ⟨S1x8x320x320, .f32⟩
  | .local _ .vmem, ⟨6, _⟩ => ⟨S1x8x320x320, .f32⟩
  | .local _ .vmem, ⟨7, _⟩ => ⟨S1x8x320x320, .f32⟩
  | .local _ .vmem, ⟨8, _⟩ => ⟨S8x320x320, .f32⟩
  | .local _ .vmem, ⟨9, _⟩ => ⟨S8x320x320, .f32⟩
  | _, _ => ⟨S3x320x320x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x320x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x320x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x320x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x320x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x320x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x8x320x320_S1x8x320x320_0_0_0_0 : ∀ a, (![0, 0, 0, 0] : Fin 4 → Nat) a + S1x8x320x320.size a ≤ S1x8x320x320.size a
  h_S1x8x320x320 : 0 < S1x8x320x320.numel
  shapeCasts_S1x8x320x320_S8x320x320 : S1x8x320x320.ShapeCasts S8x320x320
  inb_S1x1x320x320_S1x1x320x320_0_0_0_0 : ∀ a, (![0, 0, 0, 0] : Fin 4 → Nat) a + S1x1x320x320.size a ≤ S1x1x320x320.size a
  h_S1x1x320x320 : 0 < S1x1x320x320.numel
  shapeCasts_S1x1x320x320_S1x320x320 : S1x1x320x320.ShapeCasts S1x320x320
  rotates_S8x320x320_d0 : S8x320x320.Rotates 0 none
  iota_S8x320x320_d0_w32 : S8x320x320.Iotas .tc 32 [0]
  shapeCasts_S1x320x320_S1x320x320 : S1x320x320.ShapeCasts S1x320x320
  broadcasts_S1x320x320_S8x320x320 : S1x320x320.Broadcasts S8x320x320
  rotates_S8x320x320_d1 : S8x320x320.Rotates 1 none
  iota_S8x320x320_d1_w32 : S8x320x320.Iotas .tc 32 [1]
  rotates_S8x320x320_d2 : S8x320x320.Rotates 2 none
  iota_S8x320x320_d2_w32 : S8x320x320.Iotas .tc 32 [2]
  inb_S8x320x320_S8x320x320_0_0_0 : ∀ a, (![0, 0, 0] : Fin 3 → Nat) a + S8x320x320.size a ≤ S8x320x320.size a
  h_S8x320x320 : 0 < S8x320x320.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x320x320.size a ≤ S3x320x320x320.size a
  hwx0_0 : ∀ i : grid0.Coords, EltTy.bits .f32 = 32 ∨ (Rect.block (s := S3x320x320x320) S1x8x320x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x320x320.size a ≤ S3x320x320x320.size a
  hwx0_1 : ∀ i : grid0.Coords, EltTy.bits .f32 = 32 ∨ (Rect.block (s := S3x320x320x320) S1x1x320x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x320x320.size a ≤ S3x320x320x320.size a
  hwx0_2 : ∀ i : grid0.Coords, EltTy.bits .f32 = 32 ∨ (Rect.block (s := S3x320x320x320) S1x8x320x320.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x320x320.size a ≤ S3x320x320x320.size a
  hwx0_3 : ∀ i : grid0.Coords, EltTy.bits .f32 = 32 ∨ (Rect.block (s := S3x320x320x320) S1x8x320x320.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x320x320.size a ≤ S320x320x320.size a
  hwx0_4 : ∀ i : grid0.Coords, EltTy.bits .f32 = 32 ∨ (Rect.block (s := S320x320x320) S8x320x320.size (cc0_transform_4 i) (hinb0_4 i)).WholeWords (EltTy.packing .f32)

variable [Facts₀]

abbrev win0_0 : Pipeline.Window sig grid0 :=
  Pipeline.Window.ofSpec (Memref.whole main_arg0) S1x8x320x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x320x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x8x320x320.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x8x320x320.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x320x320.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x320x320x320 : Shape := ⟨4, ![3, 320, 320, 320]⟩
abbrev S1x320x320x320 : Shape := ⟨4, ![1, 320, 320, 320]⟩
abbrev S320x320x320 : Shape := ⟨3, ![320, 320, 320]⟩
abbrev S319x320x320 : Shape := ⟨3, ![319, 320, 320]⟩
abbrev S_ : Shape := ⟨0, ![]⟩
abbrev S320x319x320 : Shape := ⟨3, ![320, 319, 320]⟩
abbrev S320x320x319 : Shape := ⟨3, ![320, 320, 319]⟩

abbrev nBuf : Space → Nat
  | .hbm => 33
  | .vmem => 0
  | .smem => 0
  | _ => 0

abbrev bufTy : (tb : Table) → Fin (tcTables nBuf tb) → BufTy
  | .hbm, ⟨0, _⟩ => ⟨S3x320x320x320, .f32⟩
  | .hbm, ⟨1, _⟩ => ⟨S1x320x320x320, .f32⟩
  | .hbm, ⟨2, _⟩ => ⟨S320x320x320, .f32⟩
  | .hbm, ⟨3, _⟩ => ⟨S319x320x320, .f32⟩
  | .hbm, ⟨4, _⟩ => ⟨S_, .i32⟩
  | .hbm, ⟨5, _⟩ => ⟨S_, .f32⟩
  | .hbm, ⟨6, _⟩ => ⟨S320x320x320, .f32⟩
  | .hbm, ⟨7, _⟩ => ⟨S_, .i32⟩
  | .hbm, ⟨8, _⟩ => ⟨S_, .f32⟩
  | .hbm, ⟨9, _⟩ => ⟨S320x320x320, .f32⟩
  | .hbm, ⟨10, _⟩ => ⟨S320x320x320, .f32⟩
  | .hbm, ⟨11, _⟩ => ⟨S1x320x320x320, .f32⟩
  | .hbm, ⟨12, _⟩ => ⟨S320x320x320, .f32⟩
  | .hbm, ⟨13, _⟩ => ⟨S320x319x320, .f32⟩
  | .hbm, ⟨14, _⟩ => ⟨S_, .i32⟩
  | .hbm, ⟨15, _⟩ => ⟨S_, .f32⟩
  | .hbm, ⟨16, _⟩ => ⟨S320x320x320, .f32⟩
  | .hbm, ⟨17, _⟩ => ⟨S_, .i32⟩
  | .hbm, ⟨18, _⟩ => ⟨S_, .f32⟩
  | .hbm, ⟨19, _⟩ => ⟨S320x320x320, .f32⟩
  | .hbm, ⟨20, _⟩ => ⟨S320x320x320, .f32⟩
  | .hbm, ⟨21, _⟩ => ⟨S320x320x320, .f32⟩
  | .hbm, ⟨22, _⟩ => ⟨S1x320x320x320, .f32⟩
  | .hbm, ⟨23, _⟩ => ⟨S320x320x320, .f32⟩
  | .hbm, ⟨24, _⟩ => ⟨S320x320x319, .f32⟩
  | .hbm, ⟨25, _⟩ => ⟨S_, .i32⟩
  | .hbm, ⟨26, _⟩ => ⟨S_, .f32⟩
  | .hbm, ⟨27, _⟩ => ⟨S320x320x320, .f32⟩
  | .hbm, ⟨28, _⟩ => ⟨S_, .i32⟩
  | .hbm, ⟨29, _⟩ => ⟨S_, .f32⟩
  | .hbm, ⟨30, _⟩ => ⟨S320x320x320, .f32⟩
  | .hbm, ⟨31, _⟩ => ⟨S320x320x320, .f32⟩
  | .hbm, ⟨32, _⟩ => ⟨S320x320x320, .f32⟩
  | _, _ => ⟨S3x320x320x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩
abbrev main_c_0 : Ref sig .tc := ⟨.hbm, 7, rfl⟩
abbrev main_call1_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_call2_v0 : Ref sig .tc := ⟨.hbm, 15, rfl⟩
abbrev main_v9 : Ref sig .tc := ⟨.hbm, 16, rfl⟩
abbrev main_c_2 : Ref sig .tc := ⟨.hbm, 17, rfl⟩
abbrev main_call3_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_call4_v0 : Ref sig .tc := ⟨.hbm, 26, rfl⟩
abbrev main_v16 : Ref sig .tc := ⟨.hbm, 27, rfl⟩
abbrev main_c_4 : Ref sig .tc := ⟨.hbm, 28, rfl⟩
abbrev main_call5_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  slices_S3x320x320x320_S1x320x320x320_0_0_0_0 : S3x320x320x320.Slices ![0, 0, 0, 0] S1x320x320x320
  shapeCasts_S1x320x320x320_S320x320x320 : S1x320x320x320.ShapeCasts S320x320x320
  slices_S320x320x320_S319x320x320_0_0_0 : S320x320x320.Slices ![0, 0, 0] S319x320x320
  pads_S319x320x320_S320x320x320_100_000_000 : S319x320x320.Pads (![1, 0, 0] : Fin 3 → Nat) ![0, 0, 0] ![0, 0, 0] S320x320x320
  h_S_ : 0 < S_.numel
  pads_S319x320x320_S320x320x320_010_000_000 : S319x320x320.Pads (![0, 0, 0] : Fin 3 → Nat) ![1, 0, 0] ![0, 0, 0] S320x320x320
  slices_S3x320x320x320_S1x320x320x320_1_0_0_0 : S3x320x320x320.Slices ![1, 0, 0, 0] S1x320x320x320
  slices_S320x320x320_S320x319x320_0_0_0 : S320x320x320.Slices ![0, 0, 0] S320x319x320
  pads_S320x319x320_S320x320x320_000_100_000 : S320x319x320.Pads (![0, 1, 0] : Fin 3 → Nat) ![0, 0, 0] ![0, 0, 0] S320x320x320
  pads_S320x319x320_S320x320x320_000_010_000 : S320x319x320.Pads (![0, 0, 0] : Fin 3 → Nat) ![0, 1, 0] ![0, 0, 0] S320x320x320
  slices_S3x320x320x320_S1x320x320x320_2_0_0_0 : S3x320x320x320.Slices ![2, 0, 0, 0] S1x320x320x320
  slices_S320x320x320_S320x320x319_0_0_0 : S320x320x320.Slices ![0, 0, 0] S320x320x319
  pads_S320x320x319_S320x320x320_000_000_100 : S320x320x319.Pads (![0, 0, 1] : Fin 3 → Nat) ![0, 0, 0] ![0, 0, 0] S320x320x320
  pads_S320x320x319_S320x320x320_000_000_010 : S320x320x319.Pads (![0, 0, 0] : Fin 3 → Nat) ![0, 0, 1] ![0, 0, 0] S320x320x320

variable [Facts₀]

class Facts : Prop extends Facts₀ where

variable [Facts]
-- ==== Proof.LibSharedFrame.lean ====
/-
  A pipelined kernel whose INPUT windows read one array.

  When several input windows of a pipeline stage blocks of the same array, the array's buffer cannot be handed to
  each of them whole: it is held once, and its full share is dealt among the windows that read it.  The launch of
  such a pipeline therefore asks, in place of "every array at the full share", how the distinct buffers behind the
  arrays (`arrBufs`) make up the proof data's `arrays` at their entry contents (`hsplit`).  This file states the
  resulting run once, for a kernel that names no semaphore, no scratch contents and no generator state of its own:
  the region invariant is the scoped rest at some contents, every other unscoped buffer bypasses the region, and the
  final state has every windowed array at what the write-backs leave (`Dat.arrAt … N`) and every bypassing buffer at
  its entry contents — the same post as the frame run for distinct arrays.
-/
import Idealize.ShloMosaic.Lib.Pipeline.Frame

noncomputable section

namespace Idealize.ShloMosaic.Pipeline.SharedFrame

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe Idealize.ShloMosaic.Pipeline Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- A buffer held whole is held in four quarters: the full share is the composite of its two halves, and each half
    of its own two halves.  (What four input windows on one array are dealt, one quarter each.) -/
theorem pointsTo_quarters {Ix : Type} [DecidableEq Ix] {Name : Type} [DecidableEq Name] {U : Type} [URA U] {Lvl : Type}
    (ℓ : Loc nD τ sig) (f : Buf Val ℓ) :
    (ℓ ↦{fullShare} f : sProp (MT nD τ sig Ix Val Name U Lvl))
      ⊢ iprop((ℓ ↦{fullShare.left.left} f) ∗ (ℓ ↦{fullShare.left.right} f) ∗ (ℓ ↦{fullShare.right.left} f) ∗ (ℓ ↦{fullShare.right.right} f)) := by
  have h0 : (ℓ ↦{fullShare} f : sProp (MT nD τ sig Ix Val Name U Lvl)) ⊢ iprop((ℓ ↦{fullShare.left} f) ∗ (ℓ ↦{fullShare.right} f)) :=
    (pointsTo_share (PosShare.mem_left_op_right fullShare)).1
  have hl : (ℓ ↦{fullShare.left} f : sProp (MT nD τ sig Ix Val Name U Lvl)) ⊢ iprop((ℓ ↦{fullShare.left.left} f) ∗ (ℓ ↦{fullShare.left.right} f)) :=
    (pointsTo_share (PosShare.mem_left_op_right fullShare.left)).1
  have hr : (ℓ ↦{fullShare.right} f : sProp (MT nD τ sig Ix Val Name U Lvl)) ⊢ iprop((ℓ ↦{fullShare.right.left} f) ∗ (ℓ ↦{fullShare.right.right} f)) :=
    (pointsTo_share (PosShare.mem_left_op_right fullShare.right)).1
  refine h0.trans ?_
  iintro ⟨Hl, Hr⟩
  ihave Hl2 := hl $$ Hl
  ihave Hr2 := hr $$ Hr
  icases Hl2 with ⟨Hll, Hlr⟩
  icases Hr2 with ⟨Hrl, Hrr⟩
  isplitl [Hll]; · iexact Hll
  isplitl [Hlr]; · iexact Hlr
  isplitl [Hrl]; · iexact Hrl
  iexact Hrr

/-- The run of a one-region program whose pipeline's windows may share arrays.  From any memory with zero counters
    every weakly fair execution of @main terminates without a fault; afterwards each windowed array holds its entry
    contents overwritten by the blocks written back (`Dat.arrAt w N`: an input array is never written, so it holds
    its entry contents), and every unscoped buffer that is no window's array holds what it held at the region's
    entry.  The proof data keep nothing between grid points beyond the scoped buffers that are no staging buffer
    (`hΦ`), owe nothing (`howed`), and say by `hsplit` how the full share of each array's buffer is dealt among the
    windows on it. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfg).spec c (V c) ⊢ (dats p c).arrays ((dats p c).arrAt · 0))
    (hΦ : ∀ c t, (dats p c).Φ t = scopedRest (Ix := Unit) (Name := ℕ) (U := UR sig nD τ) (Lvl := ℕ) (Val := Val) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => h c)

end Idealize.ShloMosaic.Pipeline.SharedFrame

end
-- ==== Proof.KStencil.lean ====
/-
  The backward-difference stencil as a pipeline: the run of @main and what it leaves.

  @main is one region on a grid of 40 points.  Point `t` is handed four blocks of the ONE input array
  `x : [3, 320, 320, 320]` — rows `8t … 8t+7` of each of the three channels, and the single row `max (8t-1) 0` of
  channel 0 (the row just above the tile) — and writes rows `8t … 8t+7` of the result.  The four input windows read
  the same buffer, so its full share is dealt among them in quarters; the result's buffer is held whole.  The body
  loads the four blocks, computes the block of the result as one pure term of them (the skeleton's payloads) and stores
  it through the whole staging buffer; it keeps nothing between points.

  Here: the proof data of that pipeline (each input's staging buffer holds its block, the output's holds the payload
  of the four blocks), the body's triple by symbolic execution, the deal of the input array's share, and the run —
  every execution terminates, the input array ends unchanged, and the result array ends at its entry contents
  overwritten block by block by what the body left (`Dat.arrAt 4 N`).
-/
import proofs.«423757_j52243982189155_3_alg».proof.Proof.Gen.Kernel.Launch
import proofs.«423757_j52243982189155_3_alg».proof.Proof.Gen.Kernel.Skeleton
import proofs.«423757_j52243982189155_3_alg».proof.Proof.Gen.Kernel.Points
import proofs.«423757_j52243982189155_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Stencil

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: @main is the region alone, so they are as launched. -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it stores -/

/-- The whole of an 8-row input block's staging buffer, -/
abbrev rIn : Rect S1x8x320x320 := Rect.unit (s := S1x8x320x320) ![0, 0, 0, 0] S1x8x320x320.size inb_S1x8x320x320_S1x8x320x320_0_0_0_0
/-- of the one-row block's, -/
abbrev rHalo : Rect S1x1x320x320 := Rect.unit (s := S1x1x320x320) ![0, 0, 0, 0] S1x1x320x320.size inb_S1x1x320x320_S1x1x320x320_0_0_0_0
/-- and of the result block's. -/
abbrev rOut : Rect S8x320x320 := Rect.unit (s := S8x320x320) ![0, 0, 0] S8x320x320.size inb_S8x320x320_S8x320x320_0_0_0

/-- The block of the result the body stores at grid coordinates `i`, from the four input blocks: the sum of the three
    per-axis differences (the skeleton's payloads, composed as the body composes them). -/
def outBlk (i : grid0.Coords) (x0 : Vec F S1x8x320x320 .f32) (xh : Vec F S1x1x320x320 .f32) (x1 : Vec F S1x8x320x320 .f32)
    (x2 : Vec F S1x8x320x320 .f32) : Vec F S8x320x320 .f32 :=
  View.canon [⟨rOut, k0_pay1 (k0_pay2 (View.ld x1 rIn)) (k0_pay3 (View.ld x2 rIn)) (k0_pay4 i (View.ld x0 rIn) (View.ld xh rHalo))
    (iota .tc S8x320x320 32 [1] iota_S8x320x320_d1_w32) (k0_pay5 (View.ld x1 rIn)) 319#32⟩]

/-- The one store is of the whole buffer, so it covers it. -/
theorem cover_out (p0 : Vec F S8x320x320 .f32) (y : S8x320x320.Idx) :
    ∃ pc ∈ ([⟨rOut, p0⟩] : List (View.Piece (Elt F) S8x320x320 .f32)), y ∈ pc.1.set :=
  View.cover_of_tiled [⟨rOut, p0⟩] S8x320x320.size (by rfl) y

/-! ## The body's triple -/

set_option maxHeartbeats 1000000 in
/-- The body on whole staging memrefs — the inputs' at contents `x0 xh x1 x2`, the output's at anything — runs to a
    state holding the inputs' as they were and the output's at `outBlk` of them. -/
theorem sound_kernel (c : Dev nD) (E : Set ℕ) (i : grid0.Coords)
    (arg1 : Memref sig .tc .vmem S1x8x320x320 .f32) (harg1 : arg1.IsWhole) (arg2 : Memref sig .tc .vmem S1x1x320x320 .f32) (harg2 : arg2.IsWhole)
    (arg3 : Memref sig .tc .vmem S1x8x320x320 .f32) (harg3 : arg3.IsWhole) (arg4 : Memref sig .tc .vmem S1x8x320x320 .f32) (harg4 : arg4.IsWhole)
    (arg5 : Memref sig .tc .vmem S8x320x320 .f32) (harg5 : arg5.IsWhole)
    (x0 : Vec F S1x8x320x320 .f32) (xh : Vec F S1x1x320x320 .f32) (x1 : Vec F S1x8x320x320 .f32) (x2 : Vec F S1x8x320x320 .f32) (K : PUnit → sProp 𝕄) :
    iprop(owns (c : Thread nD τ) arg1 fullShare x0 ∗ owns (c : Thread nD τ) arg2 fullShare xh ∗ owns (c : Thread nD τ) arg3 fullShare x1
        ∗ owns (c : Thread nD τ) arg4 fullShare x2 ∗ (∃ d, owns (c : Thread nD τ) arg5 fullShare d)
        ∗ (iprop(owns (c : Thread nD τ) arg1 fullShare x0 ∗ owns (c : Thread nD τ) arg2 fullShare xh ∗ owns (c : Thread nD τ) arg3 fullShare x1
            ∗ owns (c : Thread nD τ) arg4 fullShare x2 ∗ owns (c : Thread nD τ) arg5 fullShare (outBlk i x0 xh x1 x2)) -∗ K ⟨⟩))
      ⊢ wp frame (wpE (defs₀ (F := F)) Variants.none c none) E (cc0__nabla_kernel i arg1 harg1 arg2 harg2 arg3 harg3 arg4 harg4 arg5 harg5) K := by
  simp only [cc0__nabla_kernel_eq_skeleton]; unfold cc0__nabla_kernel_skel
  simp only [k0_part1_eq_skeleton]
  unfold owns
  iintro ⟨⟨%f0, %hf0, H0⟩, ⟨%fh, %hfh, Hh⟩, ⟨%f1, %hf1, H1⟩, ⟨%f2, %hf2, H2⟩, ⟨%d4, %f4, -, H4⟩, Hk⟩
  subst hf0 hfh hf1 hf2
  sl_exec
  sl_step
  iapply Hk
  isplitl [H0]
  · iexists f0; isplitr; · ipureintro; rfl
    iexact H0
  isplitl [Hh]
  · iexists fh; isplitr; · ipureintro; rfl
    iexact Hh
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (cover_out _)

/-! ## The pipeline's proof data -/

/-- The proof data on core `c`: the arrays as the region finds them; after the body at point `t` each input's staging
    buffer at its block and the result's at `outBlk` of the four blocks; between points nothing but the scoped buffers
    that are no staging buffer; nothing owed; the input array's share dealt in quarters among its four windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (grid0.coords t) (iblk m c 0 t) (iblk m c 1 t) (iblk m c 2 t) (iblk m c 3 t) := by dsimp only [dats]

/-- Every input window is fetched at every point (its block index moves with the point), so the body finds each
    input's staging buffer at the block of this point. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The input array's share, dealt among its four windows -/

/-- The distinct buffers behind the windows' arrays are the input array and the result array. -/
theorem arrRefs_eq : (Finset.univ.image (Pipeline.arrRef spec0) : Finset (Ref sig .tc)) = {main_arg0, main_v0} := by decide

/-- Holding the input array's buffer and the result array's buffer whole is holding, window by window, a quarter of the
    input array for each of the four input windows and the whole result array for the output window: the full share is
    its two halves, and each half its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, BI.bigSep_insert (by decide), BI.bigSep_singleton, bigSep_W0]
  rw [(arr_whole0 0).set_eq_univ, (arr_whole0 4).set_eq_univ]
  refine (show iprop((((c.tc : Thread nD τ).loc main_arg0) ↦{fullShare} V m c main_arg0)
      ∗ (((c.tc : Thread nD τ).loc main_v0) ↦{fullShare} V m c main_v0)) ⊢ _ from ?_)
  iintro ⟨Ha, Ho⟩
  ihave Hq := (Pipeline.SharedFrame.pointsTo_quarters (Ix := Unit) (Name := ℕ) (U := UR sig nD τ) (Lvl := ℕ)
    ((c.tc : Thread nD τ).loc main_arg0) (V m c main_arg0)) $$ Ha
  icases Hq with ⟨H0, H1, H2, H3⟩
  isplitl [H0]; · iexact H0
  isplitl [H1]; · iexact H1
  isplitl [H2]; · iexact H2
  isplitl [H3]; · iexact H3
  iexact Ho

/-! ## The run -/

set_option backward.isDefEq.respectTransparency.types false in
/-- From any memory with zero counters every weakly fair execution of @main terminates without a fault, every windowed
    array ending at its entry contents overwritten by the blocks written back. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The input array is never written: it ends as launched.  (Window 0 is an input window on it.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Stencil

end
-- ==== Proof.KIStencil.lean ====
/-
  The backward-difference stencil as a pipeline: the run of @main and what it leaves.

  @main is one region on a grid of 40 points.  Point `t` is handed four blocks of the ONE input array
  `x : [3, 320, 320, 320]` — rows `8t … 8t+7` of each of the three channels, and the single row `max (8t-1) 0` of
  channel 0 (the row just above the tile) — and writes rows `8t … 8t+7` of the result.  The four input windows read
  the same buffer, so its full share is dealt among them in quarters; the result's buffer is held whole.  The body
  loads the four blocks, computes the block of the result as one pure term of them (the skeleton's payloads) and stores
  it through the whole staging buffer; it keeps nothing between points.

  Here: the proof data of that pipeline (each input's staging buffer holds its block, the output's holds the payload
  of the four blocks), the body's triple by symbolic execution, the deal of the input array's share, and the run —
  every execution terminates, the input array ends unchanged, and the result array ends at its entry contents
  overwritten block by block by what the body left (`Dat.arrAt 4 N`).
-/
import proofs.«423757_j52243982189155_3_alg».proof.Proof.Gen.KernelIdeal.Launch
import proofs.«423757_j52243982189155_3_alg».proof.Proof.Gen.KernelIdeal.Skeleton
import proofs.«423757_j52243982189155_3_alg».proof.Proof.Gen.KernelIdeal.Points
import proofs.«423757_j52243982189155_3_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Stencil

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The TensorCore buffers of core `c` when the region is entered: @main is the region alone, so they are as launched. -/
abbrev V (c : Dev nD) (b : Ref sig .tc) : Buf (Elt F) ((c : Thread nD τ).loc b) := m ((c : Thread nD τ).loc b)

/-- @main is the region and the return. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it stores -/

/-- The whole of an 8-row input block's staging buffer, -/
abbrev rIn : Rect S1x8x320x320 := Rect.unit (s := S1x8x320x320) ![0, 0, 0, 0] S1x8x320x320.size inb_S1x8x320x320_S1x8x320x320_0_0_0_0
/-- of the one-row block's, -/
abbrev rHalo : Rect S1x1x320x320 := Rect.unit (s := S1x1x320x320) ![0, 0, 0, 0] S1x1x320x320.size inb_S1x1x320x320_S1x1x320x320_0_0_0_0
/-- and of the result block's. -/
abbrev rOut : Rect S8x320x320 := Rect.unit (s := S8x320x320) ![0, 0, 0] S8x320x320.size inb_S8x320x320_S8x320x320_0_0_0

/-- The block of the result the body stores at grid coordinates `i`, from the four input blocks: the sum of the three
    per-axis differences (the skeleton's payloads, composed as the body composes them). -/
def outBlk (i : grid0.Coords) (x0 : Vec F S1x8x320x320 .f32) (xh : Vec F S1x1x320x320 .f32) (x1 : Vec F S1x8x320x320 .f32)
    (x2 : Vec F S1x8x320x320 .f32) : Vec F S8x320x320 .f32 :=
  View.canon [⟨rOut, k0_pay1 (k0_pay2 (View.ld x1 rIn)) (k0_pay3 (View.ld x2 rIn)) (k0_pay4 i (View.ld x0 rIn) (View.ld xh rHalo))
    (iota .tc S8x320x320 32 [1] iota_S8x320x320_d1_w32) (k0_pay5 (View.ld x1 rIn)) 319#32⟩]

/-- The one store is of the whole buffer, so it covers it. -/
theorem cover_out (p0 : Vec F S8x320x320 .f32) (y : S8x320x320.Idx) :
    ∃ pc ∈ ([⟨rOut, p0⟩] : List (View.Piece (Elt F) S8x320x320 .f32)), y ∈ pc.1.set :=
  View.cover_of_tiled [⟨rOut, p0⟩] S8x320x320.size (by rfl) y

/-! ## The body's triple -/

set_option maxHeartbeats 1000000 in
/-- The body on whole staging memrefs — the inputs' at contents `x0 xh x1 x2`, the output's at anything — runs to a
    state holding the inputs' as they were and the output's at `outBlk` of them. -/
theorem sound_kernel (c : Dev nD) (E : Set ℕ) (i : grid0.Coords)
    (arg1 : Memref sig .tc .vmem S1x8x320x320 .f32) (harg1 : arg1.IsWhole) (arg2 : Memref sig .tc .vmem S1x1x320x320 .f32) (harg2 : arg2.IsWhole)
    (arg3 : Memref sig .tc .vmem S1x8x320x320 .f32) (harg3 : arg3.IsWhole) (arg4 : Memref sig .tc .vmem S1x8x320x320 .f32) (harg4 : arg4.IsWhole)
    (arg5 : Memref sig .tc .vmem S8x320x320 .f32) (harg5 : arg5.IsWhole)
    (x0 : Vec F S1x8x320x320 .f32) (xh : Vec F S1x1x320x320 .f32) (x1 : Vec F S1x8x320x320 .f32) (x2 : Vec F S1x8x320x320 .f32) (K : PUnit → sProp 𝕄) :
    iprop(owns (c : Thread nD τ) arg1 fullShare x0 ∗ owns (c : Thread nD τ) arg2 fullShare xh ∗ owns (c : Thread nD τ) arg3 fullShare x1
        ∗ owns (c : Thread nD τ) arg4 fullShare x2 ∗ (∃ d, owns (c : Thread nD τ) arg5 fullShare d)
        ∗ (iprop(owns (c : Thread nD τ) arg1 fullShare x0 ∗ owns (c : Thread nD τ) arg2 fullShare xh ∗ owns (c : Thread nD τ) arg3 fullShare x1
            ∗ owns (c : Thread nD τ) arg4 fullShare x2 ∗ owns (c : Thread nD τ) arg5 fullShare (outBlk i x0 xh x1 x2)) -∗ K ⟨⟩))
      ⊢ wp frame (wpE (defs₀ (F := F)) Variants.none c none) E (cc0__nabla_kernel i arg1 harg1 arg2 harg2 arg3 harg3 arg4 harg4 arg5 harg5) K := by
  simp only [cc0__nabla_kernel_eq_skeleton]; unfold cc0__nabla_kernel_skel
  simp only [k0_part1_eq_skeleton]
  unfold owns
  iintro ⟨⟨%f0, %hf0, H0⟩, ⟨%fh, %hfh, Hh⟩, ⟨%f1, %hf1, H1⟩, ⟨%f2, %hf2, H2⟩, ⟨%d4, %f4, -, H4⟩, Hk⟩
  subst hf0 hfh hf1 hf2
  sl_exec
  sl_step
  iapply Hk
  isplitl [H0]
  · iexists f0; isplitr; · ipureintro; rfl
    iexact H0
  isplitl [Hh]
  · iexists fh; isplitr; · ipureintro; rfl
    iexact Hh
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (cover_out _)

/-! ## The pipeline's proof data -/

/-- The proof data on core `c`: the arrays as the region finds them; after the body at point `t` each input's staging
    buffer at its block and the result's at `outBlk` of the four blocks; between points nothing but the scoped buffers
    that are no staging buffer; nothing owed; the input array's share dealt in quarters among its four windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (grid0.coords t) (iblk m c 0 t) (iblk m c 1 t) (iblk m c 2 t) (iblk m c 3 t) := by dsimp only [dats]

/-- Every input window is fetched at every point (its block index moves with the point), so the body finds each
    input's staging buffer at the block of this point. -/
theorem before0_0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before0_1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
theorem before0_2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
theorem before0_3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The input array's share, dealt among its four windows -/

/-- The distinct buffers behind the windows' arrays are the input array and the result array. -/
theorem arrRefs_eq : (Finset.univ.image (Pipeline.arrRef spec0) : Finset (Ref sig .tc)) = {main_arg0, main_v0} := by decide

/-- Holding the input array's buffer and the result array's buffer whole is holding, window by window, a quarter of the
    input array for each of the four input windows and the whole result array for the output window: the full share is
    its two halves, and each half its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrRefs_eq, BI.bigSep_insert (by decide), BI.bigSep_singleton, bigSep_W0]
  rw [(arr_whole0 0).set_eq_univ, (arr_whole0 4).set_eq_univ]
  refine (show iprop((((c.tc : Thread nD τ).loc main_arg0) ↦{fullShare} V m c main_arg0)
      ∗ (((c.tc : Thread nD τ).loc main_v0) ↦{fullShare} V m c main_v0)) ⊢ _ from ?_)
  iintro ⟨Ha, Ho⟩
  ihave Hq := (Pipeline.SharedFrame.pointsTo_quarters (Ix := Unit) (Name := ℕ) (U := UR sig nD τ) (Lvl := ℕ)
    ((c.tc : Thread nD τ).loc main_arg0) (V m c main_arg0)) $$ Ha
  icases Hq with ⟨H0, H1, H2, H3⟩
  isplitl [H0]; · iexact H0
  isplitl [H1]; · iexact H1
  isplitl [H2]; · iexact H2
  isplitl [H3]; · iexact H3
  iexact Ho

/-! ## The run -/

set_option backward.isDefEq.respectTransparency.types false in
/-- From any memory with zero counters every weakly fair execution of @main terminates without a fault, every windowed
    array ending at its entry contents overwritten by the blocks written back. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hΦ := fun _ _ => rfl)

/-- The input array is never written: it ends as launched.  (Window 0 is an input window on it.) -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Stencil

end
-- ==== Proof.Spec.lean ====
/-
  The operator both programs compute: the adjoint of the forward-difference gradient on a 320³ grid.

  For a field `x` with three channels, the result at a grid index `(g, p, q)` is the sum over the three axes of a
  BACKWARD difference of that axis's channel with zero boundary values: along axis 0,
  `(x₀[g-1, p, q] or 0 at g = 0) - (x₀[g, p, q] or 0 at g = 319)`, and likewise along axes 1 and 2 with channels 1
  and 2.  The three differences are added in the order (axis 0 + axis 1) + axis 2.  Stated over the extended reals,
  with no side condition: every operation is a subtraction or an addition of the same operands in the same order on
  both sides, so nothing here needs the inputs finite.
-/
import Idealize.ShloMosaic.PureOps.Ideal
import Idealize.ShloMosaic.Lib.ValueIdx

noncomputable section

namespace Cert.Spec

open Idealize.ShloMosaic Idealize.ShloMosaic.ValueIdx

/-- The coordinate before `g` on an axis of extent 320 (at `g = 0` it is `0`, and is never read there). -/
abbrev pred320 (g : Fin 320) : Fin 320 := ⟨g.val - 1, by have := g.isLt; omega⟩

/-- The sum of the three per-axis backward differences with zero boundary, index by index. -/
def nablaT (x : (⟨4, ![3, 320, 320, 320]⟩ : Shape).Idx → EReal) : (⟨3, ![320, 320, 320]⟩ : Shape).Idx → EReal := fun j =>
  (((if (j 0).val = 0 then 0 else x (ix4 (0 : Fin 3) (pred320 (j 0)) (j 1) (j 2)))
      - (if (j 0).val = 319 then 0 else x (ix4 (0 : Fin 3) (j 0) (j 1) (j 2))))
    + ((if (j 1).val = 0 then 0 else x (ix4 (1 : Fin 3) (j 0) (pred320 (j 1)) (j 2)))
      - (if (j 1).val = 319 then 0 else x (ix4 (1 : Fin 3) (j 0) (j 1) (j 2)))))
  + ((if (j 2).val = 0 then 0 else x (ix4 (2 : Fin 3) (j 0) (j 1) (pred320 (j 2))))
      - (if (j 2).val = 319 then 0 else x (ix4 (2 : Fin 3) (j 0) (j 1) (j 2))))

end Cert.Spec

end
-- ==== Proof.KIPayload.lean ====
/-
  The body's arithmetic, index by index, over the extended reals.

  At a grid point with first coordinate `i` the body holds rows `8i … 8i+7` of each channel (blocks `x0 x1 x2`, the unit
  channel axis still in front) and one row of channel 0 (`xh`: the row above the tile).  At local index `(r, p, q)`:
  * along axis 0 the value one step back is the block's own row `r - 1` for `r > 0` (the rotation by one brings it
    there) and the extra row for `r = 0` — zero when the tile is the first; the subtrahend is the block's entry, zero on
    the global last row `8i + r = 319`;
  * along axes 1 and 2 the rotation by one within the block brings entry `p - 1` (resp. `q - 1`) to `p` (`q`), replaced by
    zero at `0`; the subtrahend is the entry, zero at `319`.
  The stored value is (difference 0 + difference 1) + difference 2.
-/
import proofs.«423757_j52243982189155_3_alg».proof.Proof.Gen.KernelIdeal.Skeleton
import proofs.«423757_j52243982189155_3_alg».proof.Proof.Spec
import Idealize.ShloMosaic.Lib.KernelVsHost
import Idealize.ShloMosaic.PureOps.Ideal.Laws

noncomputable section

namespace Cert.KernelIdeal.Payload

open Cert.KernelIdeal Cert.KernelIdeal.Gen Idealize.ShloMosaic Idealize.ShloMosaic.ValueIdx Cert.Spec

/-! ## Words -/

/-- Equality of two small naturals decided through their 32-bit words. -/
theorem select_ofNat_eq {α : Type} (n k : Nat) (hn : n < 2 ^ 32) (hk : k < 2 ^ 32) (A B : α) :
    Scalar.select (IntOp.cmpi .eq (BitVec.ofNat 32 n) (BitVec.ofNat 32 k)) A B = if n = k then A else B := by
  unfold Scalar.select IntOp.cmpi
  by_cases h : n = k
  · subst h
    rw [if_pos rfl]
    simp
  · have hne : BitVec.ofNat 32 n ≠ BitVec.ofNat 32 k := fun h' => h (by
      have := congrArg BitVec.toNat h'
      simp only [BitVec.toNat_ofNat] at this
      omega)
    rw [if_neg h, if_neg (by rw [beq_eq_false_iff_ne.mpr hne]; show ¬ BitVec.ofBool false = 1; decide)]

/-- A select on a scalar condition between two vectors, read at an index. -/
theorem select_vec_apply {α : Type} {s : Shape} (c : BitVec 1) (a b : s.Idx → α) (j : s.Idx) :
    (Scalar.select c a b) j = Scalar.select c (a j) (b j) := by
  unfold Scalar.select; split <;> rfl

/-- The zero word is the real zero. -/
theorem zero_word : FloatOps.ofBits (F := Ideal) FTy.f32 0#32 = (0 : EReal) := Ideal.ofBits_zero_f32

/-- The global row index of local row `r` of tile `t`, as the body computes it in 32-bit words. -/
theorem global_row (t r : Nat) (ht : t < 40) (hr : r < 8) :
    IntOp.addi (Scalar.muli (BitVec.ofNat 32 t) 8#32) (BitVec.ofNat 32 r) = BitVec.ofNat 32 (t * 8 + r) := by
  apply BitVec.eq_of_toNat_eq
  simp only [IntOp.addi, Scalar.muli, IntOp.muli, BitVec.toNat_add, BitVec.toNat_mul, BitVec.toNat_ofNat]
  omega

/-! ## Layout operations of the body, read at an index -/

/-- A block with its unit channel axis dropped reads the block at channel position 0. -/
theorem drop_unit {α : Type} (x : S1x8x320x320.Idx → α) (r : Fin 8) (p q : Fin 320) :
    shapeCast S8x320x320 x shapeCasts_S1x8x320x320_S8x320x320 (ix3 r p q) = x (ix4 (0 : Fin 1) r p q) :=
  shapeCast_apply x _ (ix3 r p q) (ix4 (0 : Fin 1) r p q) (by
    rewrite [Shape.rowMajor_val_four, Shape.rowMajor_val_three]
    show ((0 * 8 + r.val) * 320 + p.val) * 320 + q.val = (r.val * 320 + p.val) * 320 + q.val
    omega)

/-- The one-row block likewise. -/
theorem drop_unit_row {α : Type} (x : S1x1x320x320.Idx → α) (p q : Fin 320) :
    shapeCast S1x320x320 x shapeCasts_S1x1x320x320_S1x320x320 (ix3 (0 : Fin 1) p q) = x (ix4 (0 : Fin 1) (0 : Fin 1) p q) :=
  shapeCast_apply x _ (ix3 (0 : Fin 1) p q) (ix4 (0 : Fin 1) (0 : Fin 1) p q) (by
    rewrite [Shape.rowMajor_val_four, Shape.rowMajor_val_three]
    show ((0 * 1 + 0) * 320 + p.val) * 320 + q.val = (0 * 320 + p.val) * 320 + q.val
    omega)

/-- The one row repeated along the eight rows of a block. -/
theorem bcast_row {α : Type} (v : S1x320x320.Idx → α) (r : Fin 8) (p q : Fin 320) :
    broadcastTo S8x320x320 v broadcasts_S1x320x320_S8x320x320 (ix3 r p q) = v (ix3 (0 : Fin 1) p q) :=
  broadcastTo_apply v _ (ix3 r p q) (ix3 (0 : Fin 1) p q) (fun a => by
    match a with
    | ⟨0, _⟩ => rfl
    | ⟨1, _⟩ => rfl
    | ⟨2, _⟩ => rfl)

/-- A rotation by one along axis 0 of a block reads the row before, around the end. -/
theorem rot0 {α : Type} (v : S8x320x320.Idx → α) (r : Fin 8) (p q : Fin 320) :
    dynamicRotate 0 1#32 none v rotates_S8x320x320_d0 (ix3 r p q) = v (ix3 ⟨(r.val + 8 - 1) % 8, Nat.mod_lt _ (by decide)⟩ p q) :=
  dynamicRotate_apply 0 1#32 v _ (ix3 r p q) (ix3 ⟨(r.val + 8 - 1) % 8, Nat.mod_lt _ (by decide)⟩ p q) (fun b => by
    match b with
    | ⟨0, _⟩ => exact (if_pos (Fin.ext rfl)).symm
    | ⟨1, _⟩ => exact (if_neg (fun h => absurd (congrArg Fin.val h) (show ¬ (1 : ℕ) = 0 by decide))).symm
    | ⟨2, _⟩ => exact (if_neg (fun h => absurd (congrArg Fin.val h) (show ¬ (2 : ℕ) = 0 by decide))).symm)

/-- Along axis 1. -/
theorem rot1 {α : Type} (v : S8x320x320.Idx → α) (r : Fin 8) (p q : Fin 320) :
    dynamicRotate 1 1#32 none v rotates_S8x320x320_d1 (ix3 r p q) = v (ix3 r ⟨(p.val + 320 - 1) % 320, Nat.mod_lt _ (by decide)⟩ q) :=
  dynamicRotate_apply 1 1#32 v _ (ix3 r p q) (ix3 r ⟨(p.val + 320 - 1) % 320, Nat.mod_lt _ (by decide)⟩ q) (fun b => by
    match b with
    | ⟨0, _⟩ => exact (if_neg (fun h => absurd (congrArg Fin.val h) (show ¬ (0 : ℕ) = 1 by decide))).symm
    | ⟨1, _⟩ => exact (if_pos (Fin.ext rfl)).symm
    | ⟨2, _⟩ => exact (if_neg (fun h => absurd (congrArg Fin.val h) (show ¬ (2 : ℕ) = 1 by decide))).symm)

/-- Along axis 2. -/
theorem rot2 {α : Type} (v : S8x320x320.Idx → α) (r : Fin 8) (p q : Fin 320) :
    dynamicRotate 2 1#32 none v rotates_S8x320x320_d2 (ix3 r p q) = v (ix3 r p ⟨(q.val + 320 - 1) % 320, Nat.mod_lt _ (by decide)⟩) :=
  dynamicRotate_apply 2 1#32 v _ (ix3 r p q) (ix3 r p ⟨(q.val + 320 - 1) % 320, Nat.mod_lt _ (by decide)⟩) (fun b => by
    match b with
    | ⟨0, _⟩ => exact (if_neg (fun h => absurd (congrArg Fin.val h) (show ¬ (0 : ℕ) = 2 by decide))).symm
    | ⟨1, _⟩ => exact (if_neg (fun h => absurd (congrArg Fin.val h) (show ¬ (1 : ℕ) = 2 by decide))).symm
    | ⟨2, _⟩ => exact (if_pos (Fin.ext rfl)).symm)

/-- The coordinate vectors. -/
theorem iota0 (r : Fin 8) (p q : Fin 320) : iota .tc S8x320x320 32 [0] iota_S8x320x320_d0_w32 (ix3 r p q) = BitVec.ofNat 32 r.val :=
  iota_single_apply .tc S8x320x320 32 0 _ (ix3 r p q)
theorem iota1 (r : Fin 8) (p q : Fin 320) : iota .tc S8x320x320 32 [1] iota_S8x320x320_d1_w32 (ix3 r p q) = BitVec.ofNat 32 p.val :=
  iota_single_apply .tc S8x320x320 32 1 _ (ix3 r p q)
theorem iota2 (r : Fin 8) (p q : Fin 320) : iota .tc S8x320x320 32 [2] iota_S8x320x320_d2_w32 (ix3 r p q) = BitVec.ofNat 32 q.val :=
  iota_single_apply .tc S8x320x320 32 2 _ (ix3 r p q)

/-! ## The three differences -/

variable (i : grid0.Coords) (x0 : Vec Ideal S1x8x320x320 .f32) (xh : Vec Ideal S1x1x320x320 .f32)
  (x1 : Vec Ideal S1x8x320x320 .f32) (x2 : Vec Ideal S1x8x320x320 .f32) (r : Fin 8) (p q : Fin 320)

/-- Axis 0. -/
theorem diff0 :
    k0_pay4 i x0 xh (ix3 r p q)
      = (if r.val = 0 then (if (i 0).val = 0 then (0 : EReal) else xh (ix4 (0 : Fin 1) (0 : Fin 1) p q))
          else x0 (ix4 (0 : Fin 1) ⟨(r.val + 8 - 1) % 8, Nat.mod_lt _ (by decide)⟩ p q))
        - (if (i 0).val * 8 + r.val = 319 then (0 : EReal) else x0 (ix4 (0 : Fin 1) r p q)) := by
  have hi : (i 0).val < 40 := (i 0).isLt
  have hr : r.val < 8 := r.isLt
  unfold k0_pay4
  simp only [subf_apply, select_apply, select_vec_apply, cmpi, addi, Scalar.cmpi, broadcast_apply, drop_unit, drop_unit_row, bcast_row, shapeCast_self]
  rw [iota0 r p q, rot0 _ r p q, drop_unit x0 _ p q, global_row _ _ hi hr,
    select_ofNat_eq r.val 0 (by omega) (by decide), select_ofNat_eq (i 0).val 0 (by omega) (by decide),
    select_ofNat_eq ((i 0).val * 8 + r.val) 319 (by omega) (by decide), zero_word]

/-- Axis 1: the entry one step back along axis 1, zero at the first; less the entry, zero at the last. -/
theorem back1 : k0_pay5 x1 (ix3 r p q)
      = if p.val = 0 then (0 : EReal) else x1 (ix4 (0 : Fin 1) r ⟨(p.val + 320 - 1) % 320, Nat.mod_lt _ (by decide)⟩ q) := by
  have hp : p.val < 320 := p.isLt
  unfold k0_pay5 k0_pay2
  simp only [select_apply, cmpi, broadcast_apply]
  rw [iota1 r p q, rot1 _ r p q, drop_unit x1 r _ q, select_ofNat_eq p.val 0 (by omega) (by decide), zero_word]

/-- The stored value: the three differences, added (axis 0 + axis 1) + axis 2. -/
theorem stored :
    k0_pay1 (k0_pay2 x1) (k0_pay3 x2) (k0_pay4 i x0 xh) (iota .tc S8x320x320 32 [1] iota_S8x320x320_d1_w32) (k0_pay5 x1) 319#32 (ix3 r p q)
      = (((if r.val = 0 then (if (i 0).val = 0 then (0 : EReal) else xh (ix4 (0 : Fin 1) (0 : Fin 1) p q))
              else x0 (ix4 (0 : Fin 1) ⟨(r.val + 8 - 1) % 8, Nat.mod_lt _ (by decide)⟩ p q))
            - (if (i 0).val * 8 + r.val = 319 then (0 : EReal) else x0 (ix4 (0 : Fin 1) r p q)))
          + ((if p.val = 0 then (0 : EReal) else x1 (ix4 (0 : Fin 1) r ⟨(p.val + 320 - 1) % 320, Nat.mod_lt _ (by decide)⟩ q))
            - (if p.val = 319 then (0 : EReal) else x1 (ix4 (0 : Fin 1) r p q))))
        + ((if q.val = 0 then (0 : EReal) else x2 (ix4 (0 : Fin 1) r p ⟨(q.val + 320 - 1) % 320, Nat.mod_lt _ (by decide)⟩))
            - (if q.val = 319 then (0 : EReal) else x2 (ix4 (0 : Fin 1) r p q))) := by
  have hp : p.val < 320 := p.isLt
  have hq : q.val < 320 := q.isLt
  unfold k0_pay1
  simp only [addf_apply, subf_apply, select_apply, cmpi, broadcast_apply]
  rw [diff0 i x0 xh r p q, back1 x1 r p q]
  unfold k0_pay2 k0_pay3
  rw [iota1 r p q, iota2 r p q, rot2 _ r p q, drop_unit x1 r p q, drop_unit x2 r p q, drop_unit x2 r p _,
    select_ofNat_eq p.val 319 (by omega) (by decide), select_ofNat_eq q.val 0 (by omega) (by decide),
    select_ofNat_eq q.val 319 (by omega) (by decide), zero_word]

end Cert.KernelIdeal.Payload

end
-- ==== Proof.KIValue.lean ====
/-
  What the pipeline leaves in the result array: the specification of the input array.

  Point `t` reads rows `8t … 8t+7` of channels 0, 1, 2 and row `8t - 1` of channel 0 (row 0 for `t = 0`, where it is not
  used), and writes rows `8t … 8t+7` of the result.  Reading the body's stored value (`Payload.stored`) through these
  blocks: local row `r` of the tile is global row `g = 8t + r`; the value one step back along axis 0 is the block's row
  `r - 1`, that is global row `g - 1`, for `r > 0`, and the extra row `8t - 1 = g - 1` for `r = 0`, `t > 0`, and zero for
  `g = 0`; along axes 1 and 2 the neighbours lie inside the block.  So point `t` writes block `t` of `Spec.nablaT x`, the
  forty blocks tile the result array, and the array ends holding `Spec.nablaT x`.
-/
import proofs.«423757_j52243982189155_3_alg».proof.Proof.KIStencil
import proofs.«423757_j52243982189155_3_alg».proof.Proof.KIPayload
import Idealize.ShloMosaic.Lib.Pipeline.Value

set_option maxRecDepth 16384

noncomputable section

namespace Cert.KernelIdeal.StencilValue

open Cert.KernelIdeal Cert.KernelIdeal.Gen Cert.KernelIdeal.Stencil Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The index maps, decided over the forty points -/

/-- Block indices of the five windows at point `t`, and the point's grid coordinate. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 4) = 0 ∧ win0_1.index t (1 : Fin 4) = t.val * 8 - 1 ∧ win0_1.index t (2 : Fin 4) = 0 ∧ win0_1.index t (3 : Fin 4) = 0)
    ∧ (win0_2.index t (0 : Fin 4) = 1 ∧ win0_2.index t (1 : Fin 4) = t.val ∧ win0_2.index t (2 : Fin 4) = 0 ∧ win0_2.index t (3 : Fin 4) = 0)
    ∧ (win0_3.index t (0 : Fin 4) = 2 ∧ win0_3.index t (1 : Fin 4) = t.val ∧ win0_3.index t (2 : Fin 4) = 0 ∧ win0_3.index t (3 : Fin 4) = 0)
    ∧ (win0_4.index t (0 : Fin 3) = t.val ∧ win0_4.index t (1 : Fin 3) = 0 ∧ win0_4.index t (2 : Fin 3) = 0)
    ∧ (grid0.coords t (0 : Fin 1)).val = t.val :=
  (by decide +kernel : ∀ t : Fin grid0.N, _)

/-! ## The input blocks, read through the array -/

variable (c : Dev nD) (t : Fin cfg0.N) (r : Fin 8) (p q : Fin 320)

/-- The global row of local row `r` of tile `t`. -/
abbrev grow : Fin 320 := ⟨t.val * 8 + r.val, by have ht : t.val < 40 := t.isLt; have := r.isLt; omega⟩

/-- Rows `8t … 8t+7` of channel 0. -/
theorem blk0_apply : iblk m c 0 t (ix4 (0 : Fin 1) r p q) = V m c main_arg0 (ix4 (0 : Fin 3) (grow t r) p q) := by
  obtain ⟨⟨e0, e1, e2, e3⟩, -⟩ := idx_facts t
  show V m c main_arg0 (((cfg0.win 0).blk t).view.emb (ix4 (0 : Fin 1) r p q)) = _
  refine congrArg (V m c main_arg0) (funext fun a => Fin.ext ?_)
  match a with
  | ⟨0, _⟩ => show win0_0.index t (0 : Fin 4) * 1 + 1 * 0 = 0; omega
  | ⟨1, _⟩ => show win0_0.index t (1 : Fin 4) * 8 + 1 * r.val = t.val * 8 + r.val; omega
  | ⟨2, _⟩ => show win0_0.index t (2 : Fin 4) * 320 + 1 * p.val = p.val; omega
  | ⟨3, _⟩ => show win0_0.index t (3 : Fin 4) * 320 + 1 * q.val = q.val; omega

/-- Rows `8t … 8t+7` of channel 1. -/
theorem blk1_apply : iblk m c 2 t (ix4 (0 : Fin 1) r p q) = V m c main_arg0 (ix4 (1 : Fin 3) (grow t r) p q) := by
  obtain ⟨-, -, ⟨e0, e1, e2, e3⟩, -⟩ := idx_facts t
  show V m c main_arg0 (((cfg0.win 2).blk t).view.emb (ix4 (0 : Fin 1) r p q)) = _
  refine congrArg (V m c main_arg0) (funext fun a => Fin.ext ?_)
  match a with
  | ⟨0, _⟩ => show win0_2.index t (0 : Fin 4) * 1 + 1 * 0 = 1; omega
  | ⟨1, _⟩ => show win0_2.index t (1 : Fin 4) * 8 + 1 * r.val = t.val * 8 + r.val; omega
  | ⟨2, _⟩ => show win0_2.index t (2 : Fin 4) * 320 + 1 * p.val = p.val; omega
  | ⟨3, _⟩ => show win0_2.index t (3 : Fin 4) * 320 + 1 * q.val = q.val; omega

/-- Rows `8t … 8t+7` of channel 2. -/
theorem blk2_apply : iblk m c 3 t (ix4 (0 : Fin 1) r p q) = V m c main_arg0 (ix4 (2 : Fin 3) (grow t r) p q) := by
  obtain ⟨-, -, -, ⟨e0, e1, e2, e3⟩, -⟩ := idx_facts t
  show V m c main_arg0 (((cfg0.win 3).blk t).view.emb (ix4 (0 : Fin 1) r p q)) = _
  refine congrArg (V m c main_arg0) (funext fun a => Fin.ext ?_)
  match a with
  | ⟨0, _⟩ => show win0_3.index t (0 : Fin 4) * 1 + 1 * 0 = 2; omega
  | ⟨1, _⟩ => show win0_3.index t (1 : Fin 4) * 8 + 1 * r.val = t.val * 8 + r.val; omega
  | ⟨2, _⟩ => show win0_3.index t (2 : Fin 4) * 320 + 1 * p.val = p.val; omega
  | ⟨3, _⟩ => show win0_3.index t (3 : Fin 4) * 320 + 1 * q.val = q.val; omega

/-- The extra row: row `8t - 1` of channel 0. -/
theorem halo_apply : iblk m c 1 t (ix4 (0 : Fin 1) (0 : Fin 1) p q)
    = V m c main_arg0 (ix4 (0 : Fin 3) (⟨t.val * 8 - 1, by have ht : t.val < 40 := t.isLt; omega⟩ : Fin 320) p q) := by
  obtain ⟨-, ⟨e0, e1, e2, e3⟩, -⟩ := idx_facts t
  show V m c main_arg0 (((cfg0.win 1).blk t).view.emb (ix4 (0 : Fin 1) (0 : Fin 1) p q)) = _
  refine congrArg (V m c main_arg0) (funext fun a => Fin.ext ?_)
  match a with
  | ⟨0, _⟩ => show win0_1.index t (0 : Fin 4) * 1 + 1 * 0 = 0; omega
  | ⟨1, _⟩ => show win0_1.index t (1 : Fin 4) * 1 + 1 * 0 = t.val * 8 - 1; omega
  | ⟨2, _⟩ => show win0_1.index t (2 : Fin 4) * 320 + 1 * p.val = p.val; omega
  | ⟨3, _⟩ => show win0_1.index t (3 : Fin 4) * 320 + 1 * q.val = q.val; omega

/-- Local index `(r, p, q)` of the result's block `t` is global index `(8t + r, p, q)`. -/
theorem out_emb : ((cfg0.win 4).blk t).view.emb (ix3 r p q) = ix3 (grow t r) p q := by
  obtain ⟨-, -, -, -, ⟨e0, e1, e2⟩, -⟩ := idx_facts t
  funext a; apply Fin.ext
  match a with
  | ⟨0, _⟩ => show win0_4.index t (0 : Fin 3) * 8 + 1 * r.val = t.val * 8 + r.val; omega
  | ⟨1, _⟩ => show win0_4.index t (1 : Fin 3) * 320 + 1 * p.val = p.val; omega
  | ⟨2, _⟩ => show win0_4.index t (2 : Fin 3) * 320 + 1 * q.val = q.val; omega

/-! ## What point `t` writes back -/

/-- The neighbour one step back along axis 0: inside the tile for `r > 0`, the extra row for `r = 0`, nothing at the
    first global row. -/
theorem prev0 :
    (if r.val = 0 then (if t.val = 0 then (0 : EReal)
          else V m c main_arg0 (ix4 (0 : Fin 3) (⟨t.val * 8 - 1, by have ht : t.val < 40 := t.isLt; omega⟩ : Fin 320) p q))
        else V m c main_arg0 (ix4 (0 : Fin 3) (grow t ⟨(r.val + 8 - 1) % 8, Nat.mod_lt _ (by decide)⟩) p q))
      = if (grow t r).val = 0 then (0 : EReal) else V m c main_arg0 (ix4 (0 : Fin 3) (pred320 (grow t r)) p q) := by
  have ht : t.val < 40 := t.isLt
  have hr8 : r.val < 8 := r.isLt
  by_cases hr : r.val = 0
  · by_cases h0 : t.val = 0
    · rw [if_pos hr, if_pos h0, if_pos (show t.val * 8 + r.val = 0 by omega)]
    · rw [if_pos hr, if_neg h0, if_neg (show ¬ t.val * 8 + r.val = 0 by omega)]
      exact congrArg (fun g => V m c main_arg0 (ix4 (0 : Fin 3) g p q)) (Fin.ext (show t.val * 8 - 1 = t.val * 8 + r.val - 1 by omega))
  · rw [if_neg hr, if_neg (show ¬ t.val * 8 + r.val = 0 by omega)]
    exact congrArg (fun g => V m c main_arg0 (ix4 (0 : Fin 3) g p q))
      (Fin.ext (show t.val * 8 + (r.val + 8 - 1) % 8 = t.val * 8 + r.val - 1 by omega))

/-- Along axis 1 the neighbour is in the block. -/
theorem prev1 (g : Fin 320) :
    (if p.val = 0 then (0 : EReal) else V m c main_arg0 (ix4 (1 : Fin 3) g ⟨(p.val + 320 - 1) % 320, Nat.mod_lt _ (by decide)⟩ q))
      = if p.val = 0 then (0 : EReal) else V m c main_arg0 (ix4 (1 : Fin 3) g (pred320 p) q) := by
  have hp : p.val < 320 := p.isLt
  by_cases h : p.val = 0
  · rw [if_pos h, if_pos h]
  · rw [if_neg h, if_neg h]
    exact congrArg (fun y => V m c main_arg0 (ix4 (1 : Fin 3) g y q)) (Fin.ext (show (p.val + 320 - 1) % 320 = p.val - 1 by omega))

/-- Along axis 2 likewise. -/
theorem prev2 (g : Fin 320) :
    (if q.val = 0 then (0 : EReal) else V m c main_arg0 (ix4 (2 : Fin 3) g p ⟨(q.val + 320 - 1) % 320, Nat.mod_lt _ (by decide)⟩))
      = if q.val = 0 then (0 : EReal) else V m c main_arg0 (ix4 (2 : Fin 3) g p (pred320 q)) := by
  have hq : q.val < 320 := q.isLt
  by_cases h : q.val = 0
  · rw [if_pos h, if_pos h]
  · rw [if_neg h, if_neg h]
    exact congrArg (fun y => V m c main_arg0 (ix4 (2 : Fin 3) g p y)) (Fin.ext (show (q.val + 320 - 1) % 320 = q.val - 1 by omega))

/-- Point `t` writes block `t` of the specification of the input array. -/
theorem flushed_eq :
    (dats m 0 c).flushed 4 t = ((cfg0.win 4).blk t).view.read (Elt Ideal) (nablaT (V m c main_arg0)) := by
  show (cfg0.win 4).cut (grid0.coords t) ((dats m 0 c).after 4 t) = _
  rw [after0_4]
  unfold outBlk
  rw [View.canon_unit_zero hz3]
  simp only [View.ld_unit_zero (S := S1x8x320x320) hz4, View.ld_unit_zero (S := S1x1x320x320) hz4]
  funext j
  obtain ⟨r, p, q, rfl⟩ : ∃ (r : Fin 8) (p q : Fin 320), j = ix3 r p q :=
    ⟨j 0, j 1, j 2, eq_ix3 (n0 := 8) (n1 := 320) (n2 := 320) j⟩
  have hc : (grid0.coords t (0 : Fin 1)).val = t.val := (idx_facts t).2.2.2.2.2
  refine (Payload.stored (grid0.coords t) (iblk m c 0 t) (iblk m c 1 t) (iblk m c 2 t) (iblk m c 3 t) r p q).trans ?_
  show _ = nablaT (V m c main_arg0) (((cfg0.win 4).blk t).view.emb (ix3 r p q))
  rw [out_emb, blk0_apply, blk0_apply, halo_apply, blk1_apply, blk1_apply, blk2_apply, blk2_apply, hc,
    prev0, prev1, prev2]
  rfl

/-! ## The forty blocks tile the result array -/

theorem mem_blk (i : S320x320x320.Idx) :
    i ∈ ((cfg0.win 4).blk t).view.set ↔ ∀ a : Fin 3, win0_4.index t a * S8x320x320.size a ≤ (i a).val
      ∧ (i a).val < win0_4.index t a * S8x320x320.size a + S8x320x320.size a := by
  show i ∈ ((View.whole main_v0).slice (win0_4.rect t)).set ↔ _
  rw [View.set_slice_whole, Rect.mem_set_unit]
  exact Iff.rfl

/-- Every index of the result lies in the block of the point `⌊i₀ / 8⌋`, which writes back. -/
theorem cover (i : S320x320x320.Idx) : ∃ t : Fin cfg0.N, (cfg0.win 4).flush t = true ∧ i ∈ ((cfg0.win 4).blk t).view.set := by
  have h0 : (i 0).val < 320 := (i 0).isLt
  have h1 : (i 1).val < 320 := (i 1).isLt
  have h2 : (i 2).val < 320 := (i 2).isLt
  have hN : (i 0).val / 8 < cfg0.N := by rw [show cfg0.N = 40 from N_0]; omega
  refine ⟨⟨(i 0).val / 8, hN⟩, flush0_4 _, ?_⟩
  obtain ⟨-, -, -, -, ⟨e0, e1, e2⟩, -⟩ := idx_facts ⟨(i 0).val / 8, hN⟩
  have e0' : win0_4.index ⟨(i 0).val / 8, hN⟩ (0 : Fin 3) = (i 0).val / 8 := e0
  rw [mem_blk]
  intro a
  match a with
  | ⟨0, _⟩ => show win0_4.index ⟨(i 0).val / 8, hN⟩ (0 : Fin 3) * 8 ≤ (i 0).val ∧ (i 0).val < win0_4.index ⟨(i 0).val / 8, hN⟩ (0 : Fin 3) * 8 + 8; omega
  | ⟨1, _⟩ => show win0_4.index ⟨(i 0).val / 8, hN⟩ (1 : Fin 3) * 320 ≤ (i 1).val ∧ (i 1).val < win0_4.index ⟨(i 0).val / 8, hN⟩ (1 : Fin 3) * 320 + 320; omega
  | ⟨2, _⟩ => show win0_4.index ⟨(i 0).val / 8, hN⟩ (2 : Fin 3) * 320 ≤ (i 2).val ∧ (i 2).val < win0_4.index ⟨(i 0).val / 8, hN⟩ (2 : Fin 3) * 320 + 320; omega

/-- The result array after the run is the specification of the input array. -/
theorem final : (dats m 0 c).arrAt 4 cfg0.N = nablaT (V m c main_arg0) :=
  (dats m 0 c).arrAt_eq_of_cover 4 (nablaT (V m c main_arg0)) (fun t _ => flushed_eq m c t) cover

/-! ## The run, read -/

/-- Every execution of the idealized kernel terminates with the result array at the specification of the launch
    contents of the input array, and the input array unchanged. -/
theorem run : θ_run defs (onTc (τ := τ) (main (F := Ideal))) ⟨m, fun _ => 0, ρ⟩ fun r => ∀ c : Dev nD,
      r.2.mem ((c.tc : Thread nD τ).loc main_v0) = nablaT (m ((c.tc : Thread nD τ).loc main_arg0))
      ∧ r.2.mem ((c.tc : Thread nD τ).loc main_arg0) = m ((c.tc : Thread nD τ).loc main_arg0) :=
  (θ_run defs _ _).mono (fun r h c => ⟨((h c).1 4).trans (final m c),
      ((h c).1 0).trans (((dats m 0 c).arrAt_in 0 rfl _).trans (A_eq m c 0))⟩)
    (run_main m ρ)

end Cert.KernelIdeal.StencilValue

end
-- ==== Proof.RefValue.lean ====
/-
  The reference computes the specification.

  The reference slices channel `k` out of the input, drops its unit axis, cuts the last entry off axis `k`, pads the cut
  array with a zero once in front and once behind on that axis, and subtracts: the first padded array read at `j` is the
  channel at `j - 1` on the axis (zero at `0`), the second the channel at `j` (zero at `319`).  It then adds the three
  differences as (axis 0 + axis 1) + axis 2.  Read index by index that is `Spec.nablaT`.
-/
import proofs.«423757_j52243982189155_3_alg».proof.Proof.Gen.ReferenceIdeal.Read
import proofs.«423757_j52243982189155_3_alg».proof.Proof.Spec
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx Cert.Spec

variable (x : (⟨S3x320x320x320, .f32⟩ : BufTy).Contents (Elt Ideal))

/-! ## The three channels, as [320, 320, 320] arrays -/

/-- Channel 0 sliced out and reshaped reads the input at channel 0. -/
theorem chan0 (j : S320x320x320.Idx) : val_main_v1 (F := Ideal) x j = x (ix4 (0 : Fin 3) (j 0) (j 1) (j 2)) := by
  rw [val_main_v1_apply, val_main_v0_apply]
  refine congrArg x (funext fun e => Fin.ext ?_)
  have h0 : (j 0).val < 320 := (j 0).isLt
  have h1 : (j 1).val < 320 := (j 1).isLt
  have h2 : (j 2).val < 320 := (j 2).isLt
  match e with
  | ⟨0, _⟩ => rfl
  | ⟨1, _⟩ => show (((j 0).val * 320 + (j 1).val) * 320 + (j 2).val) / 102400 % 320 = (j 0).val; omega
  | ⟨2, _⟩ => show (((j 0).val * 320 + (j 1).val) * 320 + (j 2).val) / 320 % 320 = (j 1).val; omega
  | ⟨3, _⟩ => show (((j 0).val * 320 + (j 1).val) * 320 + (j 2).val) % 320 = (j 2).val; omega

/-- Channel 1 likewise. -/
theorem chan1 (j : S320x320x320.Idx) : val_main_v7 (F := Ideal) x j = x (ix4 (1 : Fin 3) (j 0) (j 1) (j 2)) := by
  rw [val_main_v7_apply, val_main_v6_apply]
  refine congrArg x (funext fun e => Fin.ext ?_)
  have h0 : (j 0).val < 320 := (j 0).isLt
  have h1 : (j 1).val < 320 := (j 1).isLt
  have h2 : (j 2).val < 320 := (j 2).isLt
  match e with
  | ⟨0, _⟩ => rfl
  | ⟨1, _⟩ => show (((j 0).val * 320 + (j 1).val) * 320 + (j 2).val) / 102400 % 320 = (j 0).val; omega
  | ⟨2, _⟩ => show (((j 0).val * 320 + (j 1).val) * 320 + (j 2).val) / 320 % 320 = (j 1).val; omega
  | ⟨3, _⟩ => show (((j 0).val * 320 + (j 1).val) * 320 + (j 2).val) % 320 = (j 2).val; omega

/-- Channel 2 likewise. -/
theorem chan2 (j : S320x320x320.Idx) : val_main_v14 (F := Ideal) x j = x (ix4 (2 : Fin 3) (j 0) (j 1) (j 2)) := by
  rw [val_main_v14_apply, val_main_v13_apply]
  refine congrArg x (funext fun e => Fin.ext ?_)
  have h0 : (j 0).val < 320 := (j 0).isLt
  have h1 : (j 1).val < 320 := (j 1).isLt
  have h2 : (j 2).val < 320 := (j 2).isLt
  match e with
  | ⟨0, _⟩ => rfl
  | ⟨1, _⟩ => show (((j 0).val * 320 + (j 1).val) * 320 + (j 2).val) / 102400 % 320 = (j 0).val; omega
  | ⟨2, _⟩ => show (((j 0).val * 320 + (j 1).val) * 320 + (j 2).val) / 320 % 320 = (j 1).val; omega
  | ⟨3, _⟩ => show (((j 0).val * 320 + (j 1).val) * 320 + (j 2).val) % 320 = (j 2).val; omega

/-! ## The padding value -/

/-- The integer zero converted to a float is the real zero. -/
theorem sitofp_zero : FloatOps.sitofp (F := Ideal) .f32 (0#32 : BitVec 32) = (0 : EReal) := by
  show (((0#32 : BitVec 32).toInt : ℝ) : EReal) = 0
  simp

/-! ## The two padded arrays of each axis -/

/-- Axis 0, padded in front: the channel one step back, zero in the first plane. -/
theorem front0 (j : S320x320x320.Idx) :
    val_main_v3 (F := Ideal) x j = if (j 0).val = 0 then 0 else x (ix4 (0 : Fin 3) (pred320 (j 0)) (j 1) (j 2)) := by
  unfold val_main_v3
  have h0 : (j 0).val < 320 := (j 0).isLt
  by_cases h : (j 0).val = 0
  · rw [if_pos h, pad_apply_of_not_inside (s := S319x320x320) (t := S320x320x320) ![1, 0, 0] ![0, 0, 0] ![0, 0, 0] _ _ _ _ j (0 : Fin 3) (fun hc => by
      have h1 : 1 ≤ (j 0).val := hc.1
      omega)]
    exact sitofp_zero
  · rw [if_neg h, pad_apply_of_inside (s := S319x320x320) (t := S320x320x320) ![1, 0, 0] ![0, 0, 0] ![0, 0, 0] _ _ _ _ j
      (ix3 (⟨(j 0).val - 1, by omega⟩ : Fin 319) (j 1) (j 2) : S319x320x320.Idx) (fun a => by
      match a with
      | ⟨0, _⟩ => show (j 0).val = 1 + ((j 0).val - 1) * (0 + 1); omega
      | ⟨1, _⟩ => show (j 1).val = 0 + (j 1).val * (0 + 1); omega
      | ⟨2, _⟩ => show (j 2).val = 0 + (j 2).val * (0 + 1); omega),
      val_main_v2_apply, chan0]
    rfl

/-- Axis 0, padded behind: the channel itself, zero in the last plane. -/
theorem back0 (j : S320x320x320.Idx) :
    val_main_v4 (F := Ideal) x j = if (j 0).val = 319 then 0 else x (ix4 (0 : Fin 3) (j 0) (j 1) (j 2)) := by
  unfold val_main_v4
  have h0 : (j 0).val < 320 := (j 0).isLt
  by_cases h : (j 0).val = 319
  · rw [if_pos h, pad_apply_of_not_inside (s := S319x320x320) (t := S320x320x320) ![0, 0, 0] ![1, 0, 0] ![0, 0, 0] _ _ _ _ j (0 : Fin 3) (fun hc => by
      have h1 : ((j 0).val - 0) / (0 + 1) < 319 := hc.2.2
      omega)]
    exact sitofp_zero
  · rw [if_neg h, pad_apply_of_inside (s := S319x320x320) (t := S320x320x320) ![0, 0, 0] ![1, 0, 0] ![0, 0, 0] _ _ _ _ j
      (ix3 (⟨(j 0).val, by omega⟩ : Fin 319) (j 1) (j 2) : S319x320x320.Idx) (fun a => by
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega),
      val_main_v2_apply, chan0]
    rfl

/-- Axis 1, padded in front. -/
theorem front1 (j : S320x320x320.Idx) :
    val_main_v9 (F := Ideal) x j = if (j 1).val = 0 then 0 else x (ix4 (1 : Fin 3) (j 0) (pred320 (j 1)) (j 2)) := by
  unfold val_main_v9
  have h0 : (j 1).val < 320 := (j 1).isLt
  by_cases h : (j 1).val = 0
  · rw [if_pos h, pad_apply_of_not_inside (s := S320x319x320) (t := S320x320x320) ![0, 1, 0] ![0, 0, 0] ![0, 0, 0] _ _ _ _ j (1 : Fin 3) (fun hc => by
      have h1 : 1 ≤ (j 1).val := hc.1
      omega)]
    exact sitofp_zero
  · rw [if_neg h, pad_apply_of_inside (s := S320x319x320) (t := S320x320x320) ![0, 1, 0] ![0, 0, 0] ![0, 0, 0] _ _ _ _ j
      (ix3 (j 0) (⟨(j 1).val - 1, by omega⟩ : Fin 319) (j 2) : S320x319x320.Idx) (fun a => by
      match a with
      | ⟨0, _⟩ => show (j 0).val = 0 + (j 0).val * (0 + 1); omega
      | ⟨1, _⟩ => show (j 1).val = 1 + ((j 1).val - 1) * (0 + 1); omega
      | ⟨2, _⟩ => show (j 2).val = 0 + (j 2).val * (0 + 1); omega),
      val_main_v8_apply, chan1]
    rfl

/-- Axis 1, padded behind. -/
theorem back1 (j : S320x320x320.Idx) :
    val_main_v10 (F := Ideal) x j = if (j 1).val = 319 then 0 else x (ix4 (1 : Fin 3) (j 0) (j 1) (j 2)) := by
  unfold val_main_v10
  have h0 : (j 1).val < 320 := (j 1).isLt
  by_cases h : (j 1).val = 319
  · rw [if_pos h, pad_apply_of_not_inside (s := S320x319x320) (t := S320x320x320) ![0, 0, 0] ![0, 1, 0] ![0, 0, 0] _ _ _ _ j (1 : Fin 3) (fun hc => by
      have h1 : ((j 1).val - 0) / (0 + 1) < 319 := hc.2.2
      omega)]
    exact sitofp_zero
  · rw [if_neg h, pad_apply_of_inside (s := S320x319x320) (t := S320x320x320) ![0, 0, 0] ![0, 1, 0] ![0, 0, 0] _ _ _ _ j
      (ix3 (j 0) (⟨(j 1).val, by omega⟩ : Fin 319) (j 2) : S320x319x320.Idx) (fun a => by
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega),
      val_main_v8_apply, chan1]
    rfl

/-- Axis 2, padded in front. -/
theorem front2 (j : S320x320x320.Idx) :
    val_main_v16 (F := Ideal) x j = if (j 2).val = 0 then 0 else x (ix4 (2 : Fin 3) (j 0) (j 1) (pred320 (j 2))) := by
  unfold val_main_v16
  have h0 : (j 2).val < 320 := (j 2).isLt
  by_cases h : (j 2).val = 0
  · rw [if_pos h, pad_apply_of_not_inside (s := S320x320x319) (t := S320x320x320) ![0, 0, 1] ![0, 0, 0] ![0, 0, 0] _ _ _ _ j (2 : Fin 3) (fun hc => by
      have h1 : 1 ≤ (j 2).val := hc.1
      omega)]
    exact sitofp_zero
  · rw [if_neg h, pad_apply_of_inside (s := S320x320x319) (t := S320x320x320) ![0, 0, 1] ![0, 0, 0] ![0, 0, 0] _ _ _ _ j
      (ix3 (j 0) (j 1) (⟨(j 2).val - 1, by omega⟩ : Fin 319) : S320x320x319.Idx) (fun a => by
      match a with
      | ⟨0, _⟩ => show (j 0).val = 0 + (j 0).val * (0 + 1); omega
      | ⟨1, _⟩ => show (j 1).val = 0 + (j 1).val * (0 + 1); omega
      | ⟨2, _⟩ => show (j 2).val = 1 + ((j 2).val - 1) * (0 + 1); omega),
      val_main_v15_apply, chan2]
    rfl

/-- Axis 2, padded behind. -/
theorem back2 (j : S320x320x320.Idx) :
    val_main_v17 (F := Ideal) x j = if (j 2).val = 319 then 0 else x (ix4 (2 : Fin 3) (j 0) (j 1) (j 2)) := by
  unfold val_main_v17
  have h0 : (j 2).val < 320 := (j 2).isLt
  by_cases h : (j 2).val = 319
  · rw [if_pos h, pad_apply_of_not_inside (s := S320x320x319) (t := S320x320x320) ![0, 0, 0] ![0, 0, 1] ![0, 0, 0] _ _ _ _ j (2 : Fin 3) (fun hc => by
      have h1 : ((j 2).val - 0) / (0 + 1) < 319 := hc.2.2
      omega)]
    exact sitofp_zero
  · rw [if_neg h, pad_apply_of_inside (s := S320x320x319) (t := S320x320x320) ![0, 0, 0] ![0, 0, 1] ![0, 0, 0] _ _ _ _ j
      (ix3 (j 0) (j 1) (⟨(j 2).val, by omega⟩ : Fin 319) : S320x320x319.Idx) (fun a => by
      match a with
      | ⟨0, _⟩ => show (j 0).val = 0 + (j 0).val * (0 + 1); omega
      | ⟨1, _⟩ => show (j 1).val = 0 + (j 1).val * (0 + 1); omega
      | ⟨2, _⟩ => show (j 2).val = 0 + (j 2).val * (0 + 1); omega),
      val_main_v15_apply, chan2]
    rfl

/-! ## The result -/

/-- The reference's result is the specification of its argument. -/
theorem result_eq : val_main_v19 (F := Ideal) x = nablaT x := by
  funext j
  rw [val_main_v19_apply, val_main_v12_apply, val_main_v5_apply, val_main_v11_apply, val_main_v18_apply,
    front0, back0, front1, back1, front2, back2]
  rfl

end Cert.ReferenceIdeal.RefValue

end
-- ==== Proof.lean ====
/-
  The adjoint gradient (sum of per-axis backward differences with zero boundary) on a 320³ grid: the kernel against
  its reference.

  The kernel is one pipelined region over forty tiles of eight rows.  Its four input windows all read the one input
  array (three channel tiles and the row above the tile), so the launch deals that array's share among them; the
  frames of both the word-level and the idealized program are that run with the result dropped (`Stencil.frame`).
  The idealized kernel's result array is the specification `Spec.nablaT` of the input (`StencilValue.run`: each point
  writes one block of it, the blocks tile the array).  The reference is a straight line of slices, zero paddings,
  subtractions and additions whose result, read index by index, is the same specification (`RefValue.result_eq`).
  Both sides perform the same subtractions and additions in the same order on the same entries, so they agree on
  every extended real: the precondition is not used.  The ideal pass rewrote nothing, so `preserves` is trivial.
-/
import proofs.«423757_j52243982189155_3_alg».proof.Defs
import proofs.«423757_j52243982189155_3_alg».proof.Proof.Gen.Kernel
import proofs.«423757_j52243982189155_3_alg».proof.Proof.Gen.KernelIdeal
import proofs.«423757_j52243982189155_3_alg».proof.Proof.Gen.ReferenceIdeal
import proofs.«423757_j52243982189155_3_alg».proof.Proof.Gen.Pre_finite_inputs
import proofs.«423757_j52243982189155_3_alg».proof.Proof.Gen.ReferenceIdeal.Run
import proofs.«423757_j52243982189155_3_alg».proof.Proof.Gen.ReferenceIdeal.Read
import proofs.«423757_j52243982189155_3_alg».proof.Proof.KStencil
import proofs.«423757_j52243982189155_3_alg».proof.Proof.KIStencil
import proofs.«423757_j52243982189155_3_alg».proof.Proof.KIValue
import proofs.«423757_j52243982189155_3_alg».proof.Proof.RefValue

noncomputable section

namespace Cert.Proof

open Idealize.ShloMosaic Idealize.ShloMosaic.TcCoe Idealize.SL.Sem

/-- The word-level kernel runs to the end and leaves its input array unchanged. -/
theorem frame_k : Cert.frame_Kernel (hKernel := Cert.Kernel.Gen.facts) (hPre_finite_inputs := Cert.Pre_finite_inputs.Gen.facts) :=
  fun m ρ _ => Cert.Kernel.Stencil.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Stencil.frame m ρ

/-- The reference is a straight line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the (agreeing) input arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.nablaT (m ((c.tc : Thread Cert.KernelIdeal.nD Cert.KernelIdeal.τ).loc Cert.KernelIdeal.main_arg0)),
    Cert.KernelIdeal.StencilValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
